-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x65536 : Shape := ⟨2, ![1024, 65536]⟩
abbrev S65536 : Shape := ⟨1, ![65536]⟩
abbrev S_ : Shape := ⟨0, ![]⟩
abbrev S65536x1 : Shape := ⟨2, ![65536, 1]⟩

class Facts : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S1024x65536 : S_.BroadcastsInDim S1024x65536 (![] : Fin 0 → Fin S1024x65536.rank)
  reducesTo_S1024x65536_S_d0_1 : S1024x65536.ReducesTo [0, 1] S_
  h_S_ : 0 < S_.numel
  reducesTo_S65536_S_d0 : S65536.ReducesTo [0] S_
  scatter_S65536_S65536x1_S65536_n_0_0_1_wf : ScatterDims.WF S65536 S65536x1 S65536 [] [0] [0] 1
  gather_S65536_S65536x1_S65536_n_0_n_n_0_1_1_wf : GatherDims.WF S65536 S65536x1 S65536 [] [0] [] [0] [] 1 ![1]

variable [Facts]

def scatter_S65536_S65536x1_S65536_n_0_0_1 : ScatterDims S65536 S65536x1 S65536 where
  updateWindowDims := []
  insertedWindowDims := [0]
  scatterDimsToOperandDims := [0]
  indexVectorDim := 1
  wf := scatter_S65536_S65536x1_S65536_n_0_0_1_wf
def gather_S65536_S65536x1_S65536_n_0_n_n_0_1_1 : GatherDims S65536 S65536x1 S65536 where
  offsetDims := []
  collapsedSliceDims := [0]
  operandBatchingDims := []
  startIndicesBatchingDims := []
  startIndexMap := [0]
  indexVectorDim := 1
  sliceSizes := ![1]
  wf := gather_S65536_S65536x1_S65536_n_0_n_n_0_1_1_wf
def fn_part1 {F : FTy → Type} [FloatOps F] (main_arg1 : IVec S65536 32) (main_v0 : IVec S65536 32) (main_v8 : IVec S65536 32) (main_v16 : IVec S_ 1) : IVec S_ 1 :=
  let main_c_5 : IVec S_ 32 := constantI S_ 32 65536#32
  let main_v17 : IVec S65536 32 := broadcastInDim S65536 ![] bcast_S_S65536 main_c_5
  let main_v18 : IVec S65536 1 := cmpi .slt main_arg1 main_v17
  let main_c_6 : IVec S_ 1 := constantI S_ 1 1#1
  let main_v19 : IVec S_ 1 := (fun x v => Host.reduce IntOp.andi x v reducesTo_S65536_S_d0 h_S_) main_v18 main_c_6
  let main_v20 : IVec S_ 1 := andi main_v16 main_v19
  let main_c_7 : IVec S_ 32 := constantI S_ 32 0#32
  let main_v21 : IVec S65536 32 := broadcastInDim S65536 ![] bcast_S_S65536 main_c_7
  let main_v22 : IVec S65536 1 := cmpi .slt main_arg1 main_v21
  let main_c_8 : IVec S_ 32 := constantI S_ 32 65536#32
  let main_v23 : IVec S65536 32 := broadcastInDim S65536 ![] bcast_S_S65536 main_c_8
  let main_v24 : IVec S65536 32 := addi main_arg1 main_v23
  let main_v25 : IVec S65536 32 := select main_v22 main_v24 main_arg1
  let main_v26 : IVec S65536x1 32 := broadcastInDim S65536x1 ![0] bcast_S65536_S65536x1_0 main_v25
  let main_v27 : IVec S65536 32 := (fun x i => Host.gather gather_S65536_S65536x1_S65536_n_0_n_n_0_1_1 x i) main_v8 main_v26
  let main_v28 : IVec S65536 1 := cmpi .eq main_v27 main_v0
  let main_c_9 : IVec S_ 1 := constantI S_ 1 1#1
  let main_v29 : IVec S_ 1 := (fun x v => Host.reduce IntOp.andi x v reducesTo_S65536_S_d0 h_S_) main_v28 main_c_9
  let main_v30 : IVec S_ 1 := andi main_v20 main_v29
  main_v30

def fn {F : FTy → Type} [FloatOps F] (main_arg0 : FVec F S1024x65536 .f32) (main_arg1 : IVec S65536 32) : IVec S_ 1 :=
  let main_v0 : IVec S65536 32 := iotaInDim S65536 32 0
  let main_c : IVec S_ 32 := constantI S_ 32 0#32
  let main_v1 : IVec S65536 32 := broadcastInDim S65536 ![] bcast_S_S65536 main_c
  let main_c_0 : IVec S_ 32 := constantI S_ 32 0#32
  let main_v2 : IVec S65536 32 := broadcastInDim S65536 ![] bcast_S_S65536 main_c_0
  let main_v3 : IVec S65536 1 := cmpi .slt main_arg1 main_v2
  let main_c_1 : IVec S_ 32 := constantI S_ 32 65536#32
  let main_v4 : IVec S65536 32 := broadcastInDim S65536 ![] bcast_S_S65536 main_c_1
  let main_v5 : IVec S65536 32 := addi main_arg1 main_v4
  let main_v6 : IVec S65536 32 := select main_v3 main_v5 main_arg1
  let main_v7 : IVec S65536x1 32 := broadcastInDim S65536x1 ![0] bcast_S65536_S65536x1_0 main_v6
  let main_v8 : IVec S65536 32 := (fun x i u => Host.scatter scatter_S65536_S65536x1_S65536_n_0_0_1 (fun _ b => b) x i u) main_v1 main_v7 main_v0
  let main_v9 : FVec F S1024x65536 .f32 := Host.absf main_arg0
  let main_cst : FVec F S_ .f32 := constant S_ .f32 0x7F800000#32
  let main_v10 : FVec F S1024x65536 .f32 := broadcastInDim S1024x65536 ![] bcast_S_S1024x65536 main_cst
  let main_v11 : IVec S1024x65536 1 := cmpf .olt main_v9 main_v10
  let main_c_2 : IVec S_ 1 := constantI S_ 1 1#1
  let main_v12 : IVec S_ 1 := (fun x v => Host.reduce IntOp.andi x v reducesTo_S1024x65536_S_d0_1 h_S_) main_v11 main_c_2
  let main_c_3 : IVec S_ 32 := constantI S_ 32 0#32
  let main_v13 : IVec S65536 32 := broadcastInDim S65536 ![] bcast_S_S65536 main_c_3
  let main_v14 : IVec S65536 1 := cmpi .sge main_arg1 main_v13
  let main_c_4 : IVec S_ 1 := constantI S_ 1 1#1
  let main_v15 : IVec S_ 1 := (fun x v => Host.reduce IntOp.andi x v reducesTo_S65536_S_d0 h_S_) main_v14 main_c_4
  let main_v16 : IVec S_ 1 := andi main_v12 main_v15
  fn_part1 (F := F) main_arg1 main_v0 main_v8 main_v16
-- ==== Kernel.lean ====
abbrev S1024x65536 : Shape := ⟨2, ![1024, 65536]⟩
abbrev S65536 : Shape := ⟨1, ![65536]⟩
abbrev S_ : Shape := ⟨0, ![]⟩
abbrev S65536x1 : Shape := ⟨2, ![65536, 1]⟩
abbrev S1024x1024x64 : Shape := ⟨3, ![1024, 1024, 64]⟩
abbrev S1024x1024 : Shape := ⟨2, ![1024, 1024]⟩
abbrev S32x1024x64 : Shape := ⟨3, ![32, 1024, 64]⟩
abbrev S32x1024 : Shape := ⟨2, ![32, 1024]⟩

abbrev nBuf : Space → Nat
  | .hbm => 53
  | .vmem => 4
  | .smem => 0
  | _ => 0

abbrev bufTy : (tb : Table) → Fin (tcTables nBuf tb) → BufTy
  | .hbm, ⟨0, _⟩ => ⟨S1024x65536, .f32⟩
  | .hbm, ⟨1, _⟩ => ⟨S65536, .i32⟩
  | .hbm, ⟨2, _⟩ => ⟨S_, .i32⟩
  | .hbm, ⟨3, _⟩ => ⟨S65536, .i32⟩
  | .hbm, ⟨4, _⟩ => ⟨S65536, .i1⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S1024x65536, .f32⟩
  | .hbm, ⟨11, _⟩ => ⟨S1024x1024x64, .f32⟩
  | .hbm, ⟨12, _⟩ => ⟨S1024x1024, .f32⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S_, .i32⟩
  | .hbm, ⟨17, _⟩ => ⟨S65536, .i32⟩
  | .hbm, ⟨18, _⟩ => ⟨S65536, .i1⟩
  | .hbm, ⟨19, _⟩ => ⟨S_, .i32⟩
  | .hbm, ⟨20, _⟩ => ⟨S65536, .i32⟩
  | .hbm, ⟨21, _⟩ => ⟨S65536, .i32⟩
  | .hbm, ⟨22, _⟩ => ⟨S65536, .i32⟩
  | .hbm, ⟨23, _⟩ => ⟨S65536x1, .i32⟩
  | .hbm, ⟨24, _⟩ => ⟨S65536, .i32⟩
  | .hbm, ⟨25, _⟩ => ⟨S_, .i32⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S65536, .i32⟩
  | .hbm, ⟨30, _⟩ => ⟨S_, .i32⟩
  | .hbm, ⟨31, _⟩ => ⟨S65536, .i32⟩
  | .hbm, ⟨32, _⟩ => ⟨S65536, .i1⟩
  | .hbm, ⟨33, _⟩ => ⟨S65536, .i32⟩
  | .hbm, ⟨34, _⟩ => ⟨S65536, .i32⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S65536, .i1⟩
  | .hbm, ⟨39, _⟩ => ⟨S_, .i32⟩
  | .hbm, ⟨40, _⟩ => ⟨S65536, .i32⟩
  | .hbm, ⟨41, _⟩ => ⟨S65536, .i32⟩
  | .hbm, ⟨42, _⟩ => ⟨S65536, .i32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S65536x1, .i32⟩
  | .hbm, ⟨51, _⟩ => ⟨S1024x65536, .f32⟩
  | .hbm, ⟨52, _⟩ => ⟨S1024x65536, .f32⟩
  | .local _ .vmem, ⟨0, _⟩ => ⟨S32x1024x64, .f32⟩
  | .local _ .vmem, ⟨1, _⟩ => ⟨S32x1024x64, .f32⟩
  | .local _ .vmem, ⟨2, _⟩ => ⟨S32x1024, .f32⟩
  | .local _ .vmem, ⟨3, _⟩ => ⟨S32x1024, .f32⟩
  | _, _ => ⟨S1024x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  shapeCasts_S1024x65536_S1024x1024x64 : S1024x65536.ShapeCasts S1024x1024x64
  inb_S32x1024x64_S32x1024x64_0_0_0 : ∀ a, (![0, 0, 0] : Fin 3 → Nat) a + S32x1024x64.size a ≤ S32x1024x64.size a
  h_S32x1024x64 : 0 < S32x1024x64.numel
  shapeCasts_S32x1024x64_S32x1024x64 : S32x1024x64.ShapeCasts S32x1024x64
  reduces_S32x1024x64_S32x1024 : S32x1024x64.Reduces [2] S32x1024
  inb_S32x1024_S32x1024_0_0 : ∀ a, (![0, 0] : Fin 2 → Nat) a + S32x1024.size a ≤ S32x1024.size a
  h_S32x1024 : 0 < S32x1024.numel
  gather_S1024x65536_S65536x1_S1024x65536_0_1_n_n_1_1_10241_wf : GatherDims.WF S1024x65536 S65536x1 S1024x65536 [0] [1] [] [1] [] 1 ![1024, 1]
  scatter_S65536_S65536x1_S65536_n_0_0_1_wf : ScatterDims.WF S65536 S65536x1 S65536 [] [0] [0] 1
  gather_S1024x1024_S65536x1_S1024x65536_0_1_n_n_1_1_10241_wf : GatherDims.WF S1024x1024 S65536x1 S1024x65536 [0] [1] [] [1] [] 1 ![1024, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024x64.size a ≤ S1024x1024x64.size a
  hwx0_0 : ∀ i : grid0.Coords, EltTy.bits .f32 = 32 ∨ (Rect.block (s := S1024x1024x64) S32x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S1024x1024.size a
  hwx0_1 : ∀ i : grid0.Coords, EltTy.bits .f32 = 32 ∨ (Rect.block (s := S1024x1024) S32x1024.size (cc0_transform_1 i) (hinb0_1 i)).WholeWords (EltTy.packing .f32)

variable [Facts₀]

def gather_S1024x65536_S65536x1_S1024x65536_0_1_n_n_1_1_10241 : GatherDims S1024x65536 S65536x1 S1024x65536 where
  offsetDims := [0]
  collapsedSliceDims := [1]
  operandBatchingDims := []
  startIndicesBatchingDims := []
  startIndexMap := [1]
  indexVectorDim := 1
  sliceSizes := ![1024, 1]
  wf := gather_S1024x65536_S65536x1_S1024x65536_0_1_n_n_1_1_10241_wf
def scatter_S65536_S65536x1_S65536_n_0_0_1 : ScatterDims S65536 S65536x1 S65536 where
  updateWindowDims := []
  insertedWindowDims := [0]
  scatterDimsToOperandDims := [0]
  indexVectorDim := 1
  wf := scatter_S65536_S65536x1_S65536_n_0_0_1_wf
def gather_S1024x1024_S65536x1_S1024x65536_0_1_n_n_1_1_10241 : GatherDims S1024x1024 S65536x1 S1024x65536 where
  offsetDims := [0]
  collapsedSliceDims := [1]
  operandBatchingDims := []
  startIndicesBatchingDims := []
  startIndexMap := [1]
  indexVectorDim := 1
  sliceSizes := ![1024, 1]
  wf := gather_S1024x1024_S65536x1_S1024x65536_0_1_n_n_1_1_10241_wf

abbrev win0_0 : Pipeline.Window sig grid0 :=
  Pipeline.Window.ofSpec (Memref.whole main_v7) S32x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S32x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x65536 : Shape := ⟨2, ![1024, 65536]⟩
abbrev S65536 : Shape := ⟨1, ![65536]⟩
abbrev S_ : Shape := ⟨0, ![]⟩
abbrev S65536x1 : Shape := ⟨2, ![65536, 1]⟩
abbrev S1024x1024x64 : Shape := ⟨3, ![1024, 1024, 64]⟩
abbrev S1024x1024 : Shape := ⟨2, ![1024, 1024]⟩
abbrev S1024x1024x1 : Shape := ⟨3, ![1024, 1024, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x65536, .f32⟩
  | .hbm, ⟨1, _⟩ => ⟨S65536, .i32⟩
  | .hbm, ⟨2, _⟩ => ⟨S_, .i32⟩
  | .hbm, ⟨3, _⟩ => ⟨S65536, .i32⟩
  | .hbm, ⟨4, _⟩ => ⟨S65536, .i1⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S1024x65536, .f32⟩
  | .hbm, ⟨11, _⟩ => ⟨S1024x1024x64, .f32⟩
  | .hbm, ⟨12, _⟩ => ⟨S_, .f32⟩
  | .hbm, ⟨13, _⟩ => ⟨S1024x1024, .f32⟩
  | .hbm, ⟨14, _⟩ => ⟨S1024x1024x1, .f32⟩
  | .hbm, ⟨15, _⟩ => ⟨S1024x1024x64, .f32⟩
  | .hbm, ⟨16, _⟩ => ⟨S1024x1024x64, .f32⟩
  | .hbm, ⟨17, _⟩ => ⟨S_, .f32⟩
  | .hbm, ⟨18, _⟩ => ⟨S1024x65536, .f32⟩
  | .hbm, ⟨19, _⟩ => ⟨S1024x65536, .f32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S1024x65536, .f32⟩
  | _, _ => ⟨S1024x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  shapeCasts_S1024x65536_S1024x1024x64 : S1024x65536.ShapeCasts S1024x1024x64
  reducesTo_S1024x1024x64_S1024x1024_d2 : S1024x1024x64.ReducesTo [2] S1024x1024
  h_S_ : 0 < S_.numel
  bcast_S1024x1024_S1024x1024x1_0_1 : S1024x1024.BroadcastsInDim S1024x1024x1 (![0, 1] : Fin 2 → Fin S1024x1024x1.rank)
  bcast_S1024x1024x1_S1024x1024x64_0_1_2 : S1024x1024x1.BroadcastsInDim S1024x1024x64 (![0, 1, 2] : Fin 3 → Fin S1024x1024x64.rank)
  bcast_S_S1024x65536 : S_.BroadcastsInDim S1024x65536 (![] : Fin 0 → Fin S1024x65536.rank)
  shapeCasts_S1024x1024x64_S1024x65536 : S1024x1024x64.ShapeCasts S1024x65536
  gather_S1024x65536_S65536x1_S1024x65536_0_1_n_n_1_1_10241_wf : GatherDims.WF S1024x65536 S65536x1 S1024x65536 [0] [1] [] [1] [] 1 ![1024, 1]
  scatter_S1024x65536_S65536x1_S1024x65536_0_1_1_1_wf : ScatterDims.WF S1024x65536 S65536x1 S1024x65536 [0] [1] [1] 1

variable [Facts₀]

def gather_S1024x65536_S65536x1_S1024x65536_0_1_n_n_1_1_10241 : GatherDims S1024x65536 S65536x1 S1024x65536 where
  offsetDims := [0]
  collapsedSliceDims := [1]
  operandBatchingDims := []
  startIndicesBatchingDims := []
  startIndexMap := [1]
  indexVectorDim := 1
  sliceSizes := ![1024, 1]
  wf := gather_S1024x65536_S65536x1_S1024x65536_0_1_n_n_1_1_10241_wf
def scatter_S1024x65536_S65536x1_S1024x65536_0_1_1_1 : ScatterDims S1024x65536 S65536x1 S1024x65536 where
  updateWindowDims := [0]
  insertedWindowDims := [1]
  scatterDimsToOperandDims := [1]
  indexVectorDim := 1
  wf := scatter_S1024x65536_S65536x1_S1024x65536_0_1_1_1_wf

class Facts : Prop extends Facts₀ where

variable [Facts]
-- ==== Proof.Spec.lean ====
/-
  The column permutation.  The index input is a vector of N = 65536 32-bit words; it is a permutation of 0 .. N-1 when
  every word is below N and no two words are equal.  Position p then names the column `col p`, and `col` is a
  bijection of the N positions onto the N columns (an injection of a finite set into itself).
-/
import Idealize.ShloMosaic.PureOps
import Idealize.ShloMosaic.Lib.ValueIdx

namespace Cert.Spec

open Idealize.ShloMosaic Idealize.ShloMosaic.ValueIdx

/-- The index words form a permutation of 0 .. 65535: each below 65536, no two equal. -/
structure IsPerm (idx : IVec (⟨1, ![65536]⟩ : Shape) 32) : Prop where
  lt : ∀ p : Fin 65536, (idx (ix1 p)).toNat < 65536
  inj : ∀ p q : Fin 65536, idx (ix1 p) = idx (ix1 q) → p = q

variable {idx : IVec (⟨1, ![65536]⟩ : Shape) 32}

/-- The column position `p` names. -/
def col (h : IsPerm idx) (p : Fin 65536) : Fin 65536 := ⟨(idx (ix1 p)).toNat, h.lt p⟩

theorem col_val (h : IsPerm idx) (p : Fin 65536) : (col h p).val = (idx (ix1 p)).toNat := rfl

theorem col_injective (h : IsPerm idx) : Function.Injective (col h) := fun p q e =>
  h.inj p q (BitVec.eq_of_toNat_eq (by have e' : (col h p).val = (col h q).val := congrArg Fin.val e; exact e'))

theorem col_surjective (h : IsPerm idx) : Function.Surjective (col h) :=
  Finite.injective_iff_surjective.1 (col_injective h)

end Cert.Spec
-- ==== Proof.PreDecode.lean ====
/-
  Reading the precondition: when the printed predicate is all ones, the index words are a permutation of 0 .. N-1.
  The predicate's integer conjuncts say: every word is at least 0; every word is below N (both signed); and the table
  built by writing p at position idx[p] reads back p at idx[p].  The first two put every word below N; the third makes
  two positions with equal words equal (they read the same table entry).
-/
import proofs.«425229_j9062380994837_3_alg».proof.Pre_finite_inputs
import proofs.«425229_j9062380994837_3_alg».proof.Proof.Gen.Pre_finite_inputs
import proofs.«425229_j9062380994837_3_alg».proof.Proof.Spec
import Idealize.ShloMosaic.Lib.StableHlo.Predicate
import Idealize.ShloMosaic.Lib.ReduceAll

namespace Cert.PreDecode

open Idealize.ShloMosaic Idealize.ShloMosaic.ValueIdx

variable {F : FTy → Type} [FloatOps F]

open Cert.Pre_finite_inputs in
/-- The start index a word names: a negative word is shifted up by N (the predicate's normalization, at one word). -/
def startWord (w : BitVec 32) : BitVec 32 := Scalar.select (IntOp.cmpi .slt w 0#32) (IntOp.addi w 65536#32) w

open Cert.Pre_finite_inputs in
/-- The table entry a word reads: its start index, read signed and clamped into the table.  It is a function of the
    word alone, which is all the injectivity argument uses. -/
def entryOf (w : BitVec 32) : S65536.Idx := Shape.Idx.ofFin ⟨min (startWord w).toInt.toNat (65536 - 1), by omega⟩

/-- The two ways of writing the rank-1 index at coordinate p agree. -/
theorem ofFin_eq_ix1 {n : Nat} (p : Fin n) : Shape.Idx.ofFin p = ix1 p := by
  funext a; match a with | ⟨0, _⟩ => exact Fin.ext rfl

open Cert.Pre_finite_inputs in
/-- The predicate's take, at position p, reads the table at the entry the word at p names: the column of start indices
    at (p, 0) is the normalized word at p, and the take reads the table at that start index clamped. -/
theorem take_at (h₀ : S_.BroadcastsInDim S65536 (![] : Fin 0 → Fin S65536.rank))
    (h₁ : S65536.BroadcastsInDim S65536x1 (![0] : Fin 1 → Fin S65536x1.rank)) (T idx : IVec S65536 32) (p : Fin 65536) :
    Host.gather gather_S65536_S65536x1_S65536_n_0_n_n_0_1_1 T
        (broadcastInDim S65536x1 ![0] h₁
          (select (cmpi .slt idx (broadcastInDim S65536 ![] h₀ (constantI S_ 32 0#32)))
            (addi idx (broadcastInDim S65536 ![] h₀ (constantI S_ 32 65536#32))) idx))
        (Shape.Idx.ofFin p)
      = T (entryOf (idx (ix1 p))) := by
  have hcol : broadcastInDim S65536x1 ![0] h₁
        (select (cmpi .slt idx (broadcastInDim S65536 ![] h₀ (constantI S_ 32 0#32)))
          (addi idx (broadcastInDim S65536 ![] h₀ (constantI S_ 32 65536#32))) idx) (StableHlo.Predicate.ixP p)
      = startWord (idx (ix1 p)) := by
    rw [StableHlo.Predicate.bcast_col1, ofFin_eq_ix1]; rfl
  rw [StableHlo.Predicate.gather_take _ rfl rfl rfl rfl T _ p (by decide)]
  simp only [hcol]
  rfl

/-- The precondition makes the index words a permutation. -/
theorem isPerm_of_pre (x : FVec F Cert.Pre_finite_inputs.S1024x65536 .f32) (idx : IVec Cert.Pre_finite_inputs.S65536 32)
    (h : Cert.Pre_finite_inputs.fn (F := F) x idx = fun _ => 1#1) : Cert.Spec.IsPerm idx := by
  -- the predicate at its one index is a conjunction of four bits; split it (the float conjunct is not opened)
  have h0 := congrFun h ValueIdx.ix0
  dsimp only [Cert.Pre_finite_inputs.fn, Cert.Pre_finite_inputs.fn_part1] at h0
  obtain ⟨h1, hD⟩ := IntOp.andi_eq_one.1 h0
  obtain ⟨h2, hC⟩ := IntOp.andi_eq_one.1 h1
  obtain ⟨_, hB⟩ := IntOp.andi_eq_one.1 h2
  clear h0 h1 h2
  -- what the table holds is not needed: only that both positions read the same entry of it
  generalize Host.scatter _ _ _ _ _ = T at hD
  -- each conjunct is an "all": it holds at every position
  haveI : Subsingleton Cert.Pre_finite_inputs.S_.Idx := ⟨fun a b => funext fun d => d.elim0⟩
  have eB := fun i => Host.reduce_andi_all _ _ _ _ _ hB i
  have eC := fun i => Host.reduce_andi_all _ _ _ _ _ hC i
  have eD := fun i => Host.reduce_andi_all _ _ _ _ _ hD i
  clear hB hC hD
  refine ⟨fun p => ?_, fun p q e => ?_⟩
  · -- 0 ≤ w and w < N as signed words: the sign bit is clear, so the unsigned value is the signed one, below N
    have b : IntOp.cmpi .sge (idx (ix1 p)) 0#32 = 1#1 := eB (ix1 p)
    have c : IntOp.cmpi .slt (idx (ix1 p)) 65536#32 = 1#1 := eC (ix1 p)
    rw [IntOp.cmpi_sge] at b
    rw [IntOp.cmpi_slt] at c
    have e0 : (0#32 : BitVec 32).toInt = 0 := by decide
    have e1 : (65536#32 : BitVec 32).toInt = 65536 := by decide
    rw [e0] at b
    rw [e1] at c
    rw [BitVec.toInt_eq_toNat_cond] at b c
    split at b <;> omega
  · -- the entry the word at r names holds r
    have key : ∀ r : Fin 65536, T (entryOf (idx (ix1 r))) = BitVec.ofNat 32 r.val := by
      intro r
      have d : IntOp.cmpi .eq (Host.gather _ T _ (Shape.Idx.ofFin r))
          (iotaInDim Cert.Pre_finite_inputs.S65536 32 0 (Shape.Idx.ofFin r)) = 1#1 := eD (Shape.Idx.ofFin r)
      rw [IntOp.cmpi_eq, take_at] at d
      exact d
    -- equal words name the same entry, which then holds both p and q; both are below 2^32
    have kp := key p
    have kq := key q
    rw [e, kq] at kp
    have := congrArg BitVec.toNat kp
    simp only [BitVec.toNat_ofNat] at this
    apply Fin.ext
    have hp := p.isLt
    have hq := q.isLt
    omega

end Cert.PreDecode
-- ==== Proof.KernelTerm.lean ====
/-
  The kernel program's host lines around its one region, as pure functions of the two arguments.
  Before the region: the columns of x gathered at the (normalized) index and regrouped as [1024, 1024, 64].
  The region: each group's sum, `groupSums`.
  After it: the inverse table (position p written at entry idx[p] of a zero table), each entry floor-divided by 64 — the
  group a column belongs to —, the group sums gathered at those groups, and x divided by them.
-/
import proofs.«425229_j9062380994837_3_alg».proof.KernelIdeal
import proofs.«425229_j9062380994837_3_alg».proof.Proof.Gen.KernelIdeal
import Idealize.ShloMosaic.Lib.ValueIdx

noncomputable section

namespace Cert.KernelIdeal.Term

open Idealize.ShloMosaic Idealize.ShloMosaic.ValueIdx Cert.KernelIdeal Cert.KernelIdeal.Facts₀

variable {F : FTy → Type} [FloatOps F]

/-- A splat of one 32-bit word over the index vector's shape. -/
abbrev splat (c : IVec S_ 32) : IVec S65536 32 := broadcastInDim S65536 ![] bcast_S_S65536 c

/-- jnp's index normalization against an axis of extent `n`: a negative index counts from the end. -/
def wrap (n : BitVec 32) (idx : IVec S65536 32) : IVec S65536 32 :=
  select (cmpi .slt idx (splat (constantI S_ 32 0#32))) (addi idx (splat (constantI S_ 32 n))) idx

/-- The normalized index as the [65536 × 1] column of start indices. -/
def startCol (n : BitVec 32) (idx : IVec S65536 32) : IVec S65536x1 32 :=
  broadcastInDim S65536x1 ![0] bcast_S65536_S65536x1_0 (wrap n idx)

/-- `x[:, idx]` regrouped as [1024, 1024, 64]: what the region's input window stages. -/
def gathered (x : FVec F S1024x65536 .f32) (idx : IVec S65536 32) : FVec F S1024x1024x64 .f32 :=
  shapeCast S1024x1024x64 (Host.gather gather_S1024x65536_S65536x1_S1024x65536_0_1_n_n_1_1_10241 x (startCol 65536#32 idx))
    shapeCasts_S1024x65536_S1024x1024x64

/-- The region's result: each group's 64 entries summed. -/
def groupSums (g : FVec Ideal S1024x1024x64 .f32) : FVec Ideal S1024x1024 .f32 :=
  fun j => ∑ k : Fin 64, g (ix3 (j 0) (j 1) k)

/-- The inverse table: position p written at entry idx[p] of a table of zeros. -/
def invIndex (idx : IVec S65536 32) : IVec S65536 32 :=
  Host.scatter scatter_S65536_S65536x1_S65536_n_0_0_1 (fun _ b => b) (splat (constantI S_ 32 0#32)) (startCol 65536#32 idx)
    (iotaInDim S65536 32 0)

/-- The divisor 64 as the called function receives it. -/
abbrev sixtyFour : IVec S_ 32 := id (constantI S_ 32 64#32)

/-- jnp's floor division by 64, word by word. -/
def floorDiv64 (a : IVec S65536 32) : IVec S65536 32 :=
  select
    (andi (cmpi .ne (signi a) (splat (signi sixtyFour)))
      (cmpi .ne (Host.remsi a (splat sixtyFour)) (splat (constantI S_ 32 0#32))))
    (subi (Host.divsi a (splat sixtyFour)) (splat (constantI S_ 32 1#32)))
    (Host.divsi a (splat sixtyFour))

/-- The group each column belongs to. -/
def groupOf (idx : IVec S65536 32) : IVec S65536 32 := floorDiv64 (invIndex idx)

/-- x divided, column by column, by the sum `S` of the column's group. -/
def scaled (x : FVec F S1024x65536 .f32) (S : FVec F S1024x1024 .f32) (idx : IVec S65536 32) : FVec F S1024x65536 .f32 :=
  Host.divf x (Host.gather gather_S1024x1024_S65536x1_S1024x65536_0_1_n_n_1_1_10241 S (startCol 1024#32 (groupOf idx)))

/-- The kernel program's result as one function of its arguments. -/
def result (x : FVec Ideal S1024x65536 .f32) (idx : IVec S65536 32) : FVec Ideal S1024x65536 .f32 :=
  scaled x (groupSums (gathered x idx)) idx

end Cert.KernelIdeal.Term

end
-- ==== Proof.KernelHost.lean ====
/-
  The kernel program's host lines after its region, as a value.
  From the region's output array `S`, the three stretches of host lines (the inverse table, the floor
  division by 64, the gather of `S` at the groups and the division) leave `Term.scaled x S idx` in the result buffer.
-/
import proofs.«425229_j9062380994837_3_alg».proof.Proof.Gen.KernelIdeal.Frame
import proofs.«425229_j9062380994837_3_alg».proof.Proof.KernelTerm
import Idealize.ShloMosaic.Lib.StableHlo.Run

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The host lines after the region, from the region's output array. -/
theorem tail_main_v26 (c : Dev nD) (S : FVec Ideal S1024x1024 .f32) (hS : (dats m 0 c).arrAt 1 cfg0.N = S) :
    Pipeline.afterTail₀ cfgs (dats m) 0 (V0 m) [hostOps1, hostOps1_1, hostOps1_2] c main_v26
      = Cert.KernelIdeal.Term.scaled (m ((c : Thread nD τ).loc main_arg0)) S (m ((c : Thread nD τ).loc main_arg1)) := by
  unfold Pipeline.afterTail₀
  simp only [hostOps1, hostOps1_1, hostOps1_2, List.flatten_cons, List.flatten_nil, List.append_nil, List.cons_append,
    List.nil_append]
  after_results_simp
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e8 : Pipeline.withArrays (cfgs 0).spec c (V0 m c) (fun w => (dats m 0 c).arrAt w (cfgs 0).N) (Proc.devRef .tc main_v8)
      = S :=
    (Pipeline.withArrays_arr spec0 launch0.win.arr_inj c _ _ 1).trans hS
  rw [e0, e1, e8]
  simp only [TRef.ofBuf, TRef.toBuf, cast_eq]
  rfl

end Cert.KernelIdeal.Host

end
-- ==== Proof.KernelValue.lean ====
/-
  The kernel program's run with its result named: every weakly fair execution ends with the result buffer holding
  `Term.result` of the two arguments — the region's output array is, group by group, the sum of the group's 64
  gathered entries (each grid point writes the sums of its 32 rows; the 32 points cover the 1024 rows), the host lines
  before and after the region are `Term.gathered` and `Term.scaled` — and the arguments unchanged.
-/
import proofs.«425229_j9062380994837_3_alg».proof.Proof.Gen.KernelIdeal.Frame
import proofs.«425229_j9062380994837_3_alg».proof.Proof.KernelTerm
import proofs.«425229_j9062380994837_3_alg».proof.Proof.KernelHost
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.RunValue

open Idealize.ShloMosaic Idealize.ShloMosaic.TcCoe Idealize.SL.Sem Idealize.ShloMosaic.ValueIdx
open Cert.KernelIdeal Cert.KernelIdeal.Gen

section Region

variable (m : (ℓ : Loc nD τ sig) → Buf (Elt Ideal) ℓ)

/-- The zero offsets of a rank-2 whole-block access. -/
theorem zeros2 : (![0, 0] : Fin 2 → Nat) = fun _ => 0 := funext fun a => by fin_cases a <;> rfl
/-- The zero offsets of a rank-3 whole-block access. -/
theorem zeros3 : (![0, 0, 0] : Fin 3 → Nat) = fun _ => 0 := funext fun a => by fin_cases a <;> rfl

/-- The array the region's input window stages, [1024, 1024, 64], as the region finds it. -/
abbrev staged (c : Dev nD) : FVec Ideal S1024x1024x64 .f32 := V m c main_v7

/-- The staged array is the columns of x gathered at the normalized index and regrouped: the host lines before the
    region, read off in order. -/
theorem staged_eq (c : Dev nD) :
    staged m c
      = Term.gathered (F := Ideal) (m ((c.tc : Thread nD τ).loc main_arg0)) (m ((c.tc : Thread nD τ).loc main_arg1)) := by
  show (V m c main_v7 : S1024x1024x64.Idx → EReal) = _
  dsimp only [Gen.V, Gen.V0]
  simp only [Gen.hostOps0, List.flatten_cons, List.flatten_nil, List.append_nil]
  after_results
  rfl

/-- The body's result at row r, group g of its block: the sum over the last axis of the input block's 64 entries of
    that row and group (the reduction's inserted index is (r, g, k)). -/
theorem pay_apply (x0 : FVec Ideal S32x1024x64 .f32) (r : Fin 32) (g : Fin 1024) :
    k0_pay1 (F := Ideal) x0 (ix2 r g) = ∑ k : Fin 64, x0 (ix3 r g k) := by
  unfold k0_pay1
  refine (Ideal.multiReduction_add_single (shapeCast S32x1024x64 x0 shapeCasts_S32x1024x64_S32x1024x64) 0x00000000#32
    reduces_S32x1024x64_S32x1024 (.inl rfl) rfl (ix2 r g)).trans ?_
  rw [shapeCast_self]
  refine Finset.sum_congr rfl fun k _ => congrArg x0 ?_
  funext a
  match a with
  | ⟨0, _⟩ => rfl
  | ⟨1, _⟩ => rfl
  | ⟨2, _⟩ => rfl

/-- The same at any index of the output block whose coordinates are r and g. -/
theorem pay_at (x0 : FVec Ideal S32x1024x64 .f32) (y : S32x1024.Idx) (r : Fin 32) (g : Fin 1024)
    (h0 : (y 0).val = r.val) (h1 : (y 1).val = g.val) :
    k0_pay1 (F := Ideal) x0 y = ∑ k : Fin 64, x0 (ix3 r g k) := by
  obtain rfl : y = ix2 r g := funext fun a => Fin.ext (by
    match a with
    | ⟨0, _⟩ => exact h0
    | ⟨1, _⟩ => exact h1)
  exact pay_apply x0 r g

/-- The group sums at any index of the output array whose coordinates are row R and group g. -/
theorem groupSums_at (G : FVec Ideal S1024x1024x64 .f32) (i : S1024x1024.Idx) (R : Fin 1024) (g : Fin 1024)
    (h0 : (i 0).val = R.val) (h1 : (i 1).val = g.val) :
    Term.groupSums G i = ∑ k : Fin 64, G (ix3 R g k) := by
  obtain rfl : i = ix2 R g := funext fun a => Fin.ext (by
    match a with
    | ⟨0, _⟩ => exact h0
    | ⟨1, _⟩ => exact h1)
  rfl

/-- The block indices of the two windows at grid point t: block t along the rows, block 0 along every other axis. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The input block at point t, at row r, group g, entry k, is the staged array at row 32 t + r, group g, entry k:
    a block's coordinate is block index × block size + the coordinate inside the block. -/
theorem iblk_apply (c : Dev nD) (t : Fin cfg0.N) (r : Fin 32) (g : Fin 1024) (k : Fin 64) (R : Fin 1024)
    (hR : R.val = 32 * t.val + r.val) :
    (iblk m c 0 t : FVec Ideal S32x1024x64 .f32) (ix3 r g k) = staged m c (ix3 R g k) := by
  obtain ⟨e0, e1, e2, -, -⟩ := idx_facts t
  unfold iblk
  rw [View.read_apply]
  show V m c main_v7 _ = V m c main_v7 _
  congr 1
  funext a
  apply Fin.ext
  match a with
  | ⟨0, _⟩ => show win0_0.index t 0 * 32 + 1 * r.val = R.val; rw [e0, hR]; omega
  | ⟨1, _⟩ => show win0_0.index t 1 * 1024 + 1 * g.val = g.val; rw [e1]; omega
  | ⟨2, _⟩ => show win0_0.index t 2 * 64 + 1 * k.val = k.val; rw [e2]; omega

/-- What point t writes back is block t of the group sums of the staged array: rows 32 t … 32 t + 31, each group's
    sum taken over the same 64 entries on both sides. -/
theorem written_back (c : Dev nD) (t : Fin cfg0.N) :
    (dats m 0 c).flushed 1 t = ((cfg0.win 1).blk t).view.read (Elt Ideal) (Term.groupSums (staged m c)) := by
  show (cfg0.win 1).cut (grid0.coords t) ((dats m 0 c).after 1 t) = _
  rw [after0_1]
  unfold out0_1
  rw [View.canon_unit_zero zeros2]
  simp only [View.ld_unit_zero (S := S32x1024x64) zeros3]
  funext j
  rw [View.read_apply]
  have hN : cfg0.N = 32 := N_0
  have ht : t.val < cfg0.N := t.isLt
  have hj0 : (j 0).val < 32 := (j 0).isLt
  have hj1 : (j 1).val < 1024 := (j 1).isLt
  obtain ⟨-, -, -, e3, e4⟩ := idx_facts t
  refine (pay_at (iblk m c 0 t) _ ⟨(j 0).val, hj0⟩ ⟨(j 1).val, hj1⟩ rfl rfl).trans ?_
  show _ = Term.groupSums (staged m c) _
  refine Eq.trans ?_ (groupSums_at (staged m c) _ ⟨32 * t.val + (j 0).val, by omega⟩ ⟨(j 1).val, hj1⟩ ?_ ?_).symm
  · exact Finset.sum_congr rfl fun k _ => iblk_apply m c t _ _ k _ rfl
  · show win0_1.index t 0 * 32 + 1 * (j 0).val = 32 * t.val + (j 0).val
    rw [e3]; omega
  · show win0_1.index t 1 * 1024 + 1 * (j 1).val = (j 1).val
    rw [e4]; omega

/-- Every index of the output array lies in some point's block: row b in the block of point b / 32. -/
theorem covered (i : S1024x1024.Idx) :
    ∃ t : Fin cfg0.N, (cfg0.win 1).flush t = true ∧ i ∈ ((cfg0.win 1).blk t).view.set := by
  have hN : cfg0.N = 32 := N_0
  have hi0 : (i 0).val < 1024 := (i 0).isLt
  have hi1 : (i 1).val < 1024 := (i 1).isLt
  have hq : (i 0).val / 32 < cfg0.N := by rw [hN]; omega
  obtain ⟨-, -, -, e3, e4⟩ := idx_facts ⟨(i 0).val / 32, hq⟩
  refine ⟨⟨(i 0).val / 32, hq⟩, flush0_1 _, ?_⟩
  show i ∈ ((View.whole main_v8).slice (win0_1.rect ⟨(i 0).val / 32, hq⟩)).set
  rw [View.set_slice_whole, Rect.mem_set_unit]
  intro a
  match a with
  | ⟨0, _⟩ =>
    show win0_1.index ⟨(i 0).val / 32, hq⟩ 0 * 32 ≤ (i 0).val ∧ (i 0).val < win0_1.index ⟨(i 0).val / 32, hq⟩ 0 * 32 + 32
    rw [e3]; dsimp only; omega
  | ⟨1, _⟩ =>
    show win0_1.index ⟨(i 0).val / 32, hq⟩ 1 * 1024 ≤ (i 1).val ∧ (i 1).val < win0_1.index ⟨(i 0).val / 32, hq⟩ 1 * 1024 + 1024
    rw [e4]; omega

/-- The region's output array after the run: the group sums of the staged array. -/
theorem sums_array (c : Dev nD) : (dats m 0 c).arrAt 1 cfg0.N = Term.groupSums (staged m c) :=
  (dats m 0 c).arrAt_eq_of_cover 1 (Term.groupSums (staged m c)) (fun t _ => written_back m c t) covered

/-- The result buffer after the host lines that follow the region: x divided by the gathered group sums of the
    gathered columns. -/
theorem result_eq (c : Dev nD) :
    Pipeline.afterTail₀ cfgs (dats m) 0 (V0 m) [hostOps1, hostOps1_1, hostOps1_2] c main_v26
      = Term.result (m ((c.tc : Thread nD τ).loc main_arg0)) (m ((c.tc : Thread nD τ).loc main_arg1)) := by
  rw [Cert.KernelIdeal.Host.tail_main_v26 m c _ (sums_array m c), staged_eq]
  rfl

end Region

/-- The run, with the result named. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v26)
        = Cert.KernelIdeal.Term.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v26 (Pipeline.mem_restRefs_of main_v26 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.Words.lean ====
/-
  Arithmetic on small non-negative 32-bit words, as the programs' integer lines compute it.
  * jnp's index normalization `select (i < 0) (i + n) i` leaves a word below 2^31 as it is.
  * jnp's floor division by 64 (`floor_divide`: the truncated quotient, lowered by one when the signs differ and the
    remainder is not zero) of a word below 65536 is its value divided by 64.
-/
import Idealize.ShloMosaic.PureOps
import Idealize.ShloMosaic.Lib.StableHlo.Predicate

namespace Cert.Words

open Idealize.ShloMosaic

/-- The sign of a word as `stablehlo.sign` computes it: 0, -1 or 1. -/
def sgn (a : BitVec 32) : BitVec 32 := if a = 0 then 0 else if a.msb then -1 else 1

/-- jnp's `a // 64` on one word: the host's truncated quotient, minus one when the signs of `a` and 64 differ and the
    remainder is not zero. -/
def fdiv64 (a : BitVec 32) : BitVec 32 :=
  Scalar.select
    (IntOp.andi (IntOp.cmpi .ne (sgn a) (sgn 64#32)) (IntOp.cmpi .ne (IntOp.remsi .host a 64#32) 0#32))
    (IntOp.subi (IntOp.divsi .host a 64#32) 1#32) (IntOp.divsi .host a 64#32)

/-- A word below 65536 floor-divided by 64 is its value divided by 64. -/
theorem fdiv64_small (a : BitVec 32) (h : a.toNat < 65536) : fdiv64 a = BitVec.ofNat 32 (a.toNat / 64) := by
  -- 64 is neither zero nor -1, so the division meets no corner
  have hcorner : ¬ IntOp.SDivCorner a 64#32 := by
    intro hc; rcases hc with hc | ⟨_, hc⟩ <;> exact absurd hc (by decide)
  -- a word below 65536 has a clear sign bit, and so has 64
  have hm : a.msb = false := BitVec.msb_eq_false_iff_two_mul_lt.mpr (by omega)
  have h64 : (64#32 : BitVec 32).msb = false := by decide
  -- both operands non-negative: the signed quotient and remainder are the unsigned ones
  have hdiv : IntOp.divsi .host a 64#32 = BitVec.ofNat 32 (a.toNat / 64) := by
    apply BitVec.eq_of_toNat_eq
    simp only [IntOp.divsi, if_neg hcorner, BitVec.sdiv_eq, hm, h64, BitVec.udiv_eq, BitVec.toNat_udiv, BitVec.toNat_ofNat,
      Nat.reducePow, Nat.reduceMod]
    omega
  have hrem : IntOp.remsi .host a 64#32 = BitVec.ofNat 32 (a.toNat % 64) := by
    apply BitVec.eq_of_toNat_eq
    simp only [IntOp.remsi, if_neg hcorner, BitVec.srem_eq, hm, h64, BitVec.umod_eq, BitVec.toNat_umod, BitVec.toNat_ofNat,
      Nat.reducePow, Nat.reduceMod]
    omega
  have hs64 : sgn 64#32 = 1#32 := by decide
  -- the signs differ only for a = 0, whose remainder is 0: the conjunction is never set
  have hcond : IntOp.andi (IntOp.cmpi .ne (sgn a) (sgn 64#32)) (IntOp.cmpi .ne (IntOp.remsi .host a 64#32) 0#32) ≠ 1#1 := by
    by_cases ha : a = 0#32
    · have hr0 : IntOp.remsi .host a 64#32 = 0#32 := by rw [hrem, ha]; rfl
      rw [hr0]; simp [IntOp.andi, IntOp.cmpi]
    · have hsa : sgn a = 1#32 := by simp [sgn, ha, hm]
      rw [hsa, hs64]; simp [IntOp.andi, IntOp.cmpi]
  unfold fdiv64 Scalar.select
  exact (if_neg hcond).trans hdiv

/-- jnp's index normalization leaves a non-negative word (one below 2^31) unchanged, whatever it would add. -/
theorem wrap_small (a c : BitVec 32) (h : a.toNat < 2 ^ 31) :
    Scalar.select (IntOp.cmpi .slt a 0#32) (IntOp.addi a c) a = a := by
  -- a non-negative word is not below zero, so the select keeps it
  have hn : IntOp.cmpi .slt a 0#32 ≠ 1#1 := by
    intro hc
    have hlt := (StableHlo.Predicate.slt_iff_toNat h (by decide)).mp hc
    simp at hlt
  unfold Scalar.select
  exact if_neg hn

/-- A word below 2^31 read as a signed integer is its value. -/
theorem toInt_small (a : BitVec 32) (h : a.toNat < 2 ^ 31) : a.toInt = (a.toNat : Int) :=
  StableHlo.Predicate.toInt_eq_toNat_of_lt h

end Cert.Words
-- ==== Proof.LibIndex.lean ====
/-
  The two index-driven host operations of `x[:, idx]` and `y.at[:, idx].set(v)` (and their rank-1 forms), read at one
  position, for any dimension-number record whose fields are the printed ones.
  * The column gather: result element (b, p) is the operand's element (b, c), c the start index of position p read
    signed and clamped into the operand's columns.
  * The scatters: update element p (rank 1), or (b, p) (columns), lands on operand element t, or (b, t), when the
    scatter index of position p reads, signed, as t inside the operand.
-/
import Idealize.ShloMosaic.PureOps
import Idealize.ShloMosaic.Lib.ValueIdx
import Idealize.ShloMosaic.Lib.StableHlo.Predicate

namespace Cert.Lib.Index

open Idealize.ShloMosaic Idealize.ShloMosaic.ValueIdx
open Idealize.ShloMosaic.StableHlo.Predicate (ixP)

/-- An entry of a list known to be a singleton is that one element. -/
private theorem getElem_of_eq_singleton {β : Type} {l : List β} {a : β} (h : l = [a]) (i : Nat) (hi : i < l.length) :
    l[i]'hi = a := by
  subst h
  have h0 : i = 0 := by simpa using hi
  subst h0
  rfl

/-- THE COLUMN GATHER `x[:, idx]`: operand [R × N], start indices the [n × 1] column of positions, result [R × n];
    the operand's axis 0 is the one offset axis, its axis 1 collapsed and start-indexed, the index vector on axis 1. -/
theorem gather_cols_apply {α : Type} {R N n w : Nat} (d : GatherDims ⟨2, ![R, N]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![n, 1]⟩ w) (b : Fin R) (p : Fin n) (hN : 0 < N) :
    Host.gather d x idx (ix2 b p) = x (ix2 b ⟨min (idx (ixP p)).toInt.toNat (N - 1), by omega⟩) := by
  have hob0 : ∀ a : Fin 2, a ∉ d.operandBatchingDims := fun a => by rw [hob]; exact List.not_mem_nil
  have hbd : d.batchDims = [1] := by
    show Shape.kept _ d.offsetDims = _
    rw [hoff]; rfl
  have hsk : d.sKept = [0] := by
    show Shape.kept _ (d.collapsedSliceDims ++ d.operandBatchingDims) = _
    rw [hcoll, hob]; rfl
  -- axis 0 of the operand: no start, no batching; the offset coordinate is the result's axis-0 coordinate
  have h0 : (d.operandIdx (ix2 b p) idx 0).val = b.val := by
    have hm : (0 : Fin 2) ∉ d.startIndexMap := by rw [hsim]; simp
    have hk : (0 : Fin 2) ∈ d.sKept := by rw [hsk]; exact List.mem_singleton.mpr rfl
    simp only [GatherDims.operandIdx, GatherDims.batchCoord_eq_zero _ _ _ (hob0 _), GatherDims.start, dif_neg hm,
      Nat.add_zero, Nat.zero_add]
    unfold GatherDims.offCoord
    rw [dif_pos hk]
    have e : ∀ X : Fin 2, X = 0 → ((ix2 b p : (⟨2, ![R, n]⟩ : Shape).Idx) X).val = b.val := fun X hX => by
      subst hX; rfl
    exact e _ (getElem_of_eq_singleton hoff _ _)
  -- axis 1 of the operand: collapsed and start-indexed; the clamped start alone
  have h1 : (d.operandIdx (ix2 b p) idx 1).val = min (idx (ixP p)).toInt.toNat (N - 1) := by
    have hm : (1 : Fin 2) ∈ d.startIndexMap := by rw [hsim]; exact List.mem_singleton.mpr rfl
    have hk : (1 : Fin 2) ∉ d.sKept := by rw [hsk]; simp
    have hsl : d.sliceSizes 1 = 1 := d.slice_collapsed 1 (by rw [hcoll]; exact List.mem_singleton.mpr rfl)
    have hsi : d.siIdx (ix2 b p) ⟨List.idxOf (1 : Fin 2) d.startIndexMap, List.idxOf_lt_length_iff.2 hm⟩ = ixP p := by
      funext c
      match c with
      | ⟨0, _⟩ =>
        unfold GatherDims.siIdx
        rw [dif_neg (by rw [hivd]; simp)]
        unfold GatherDims.siCoord
        apply Fin.ext
        simp only [Fin.val_cast]
        have e : ∀ X : Fin 2, X = 1 → ((ix2 b p : (⟨2, ![R, n]⟩ : Shape).Idx) X).val = p.val := fun X hX => by
          subst hX; rfl
        exact e _ (getElem_of_eq_singleton hbd _ _)
      | ⟨1, _⟩ =>
        unfold GatherDims.siIdx
        rw [dif_pos (by rw [hivd])]
        apply Fin.ext
        show List.idxOf (1 : Fin 2) d.startIndexMap = 0
        rw [hsim]; simp
    simp only [GatherDims.operandIdx, GatherDims.batchCoord_eq_zero _ _ _ (hob0 _), GatherDims.offCoord_eq_zero _ _ _ hk,
      Nat.add_zero, GatherDims.start, dif_pos hm]
    rw [hsi, hsl]
    rfl
  unfold Host.gather
  congr 1
  funext a
  apply Fin.ext
  match a with
  | ⟨0, _⟩ => exact h0
  | ⟨1, _⟩ => exact h1

/-- THE RANK-1 SCATTER `y.at[idx].set(v)`: operand [N], scatter indices the [n × 1] column of positions, updates [n];
    the operand's one axis inserted and scatter-indexed. Update p lands on element t when its index reads as t. -/
theorem scatter1_resultIdx {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (idx : IVec ⟨2, ![n, 1]⟩ w) (p : Fin n) (t : Fin N) (ht : (idx (ixP p)).toInt = (t.val : Int)) :
    d.resultIdx? (ix1 p) idx = some (ix1 t) := by
  have hsk : d.sKept = [] := by
    show Shape.kept _ d.insertedWindowDims = _
    rw [hiw]; rfl
  -- the operand's one axis: inserted, so no window coordinate; the start is the index of position p
  have hwin : d.window (ix1 p) 0 = 0 := by
    unfold ScatterDims.window
    rw [dif_neg (by rw [hsk]; exact List.not_mem_nil)]
  have hstart : d.start (ix1 p) idx 0 = (t.val : Int) := by
    have hm : (0 : Fin 1) ∈ d.scatterDimsToOperandDims := by rw [hsd]; exact List.mem_singleton.mpr rfl
    have hsi : d.siIdx (ix1 p) ⟨List.idxOf (0 : Fin 1) d.scatterDimsToOperandDims, List.idxOf_lt_length_iff.2 hm⟩ = ixP p := by
      funext c
      match c with
      | ⟨0, _⟩ =>
        unfold ScatterDims.siIdx
        rw [dif_neg (by rw [hivd]; simp)]
        unfold ScatterDims.siCoord
        apply Fin.ext
        simp only [Fin.val_cast]
        have e : ∀ X : Fin 1, ((ix1 p : (⟨1, ![n]⟩ : Shape).Idx) X).val = p.val := fun X => by
          obtain rfl : X = 0 := Subsingleton.elim _ _
          rfl
        exact e _
      | ⟨1, _⟩ =>
        unfold ScatterDims.siIdx
        rw [dif_pos (by rw [hivd])]
        apply Fin.ext
        show List.idxOf (0 : Fin 1) d.scatterDimsToOperandDims = 0
        rw [hsd]; simp
    unfold ScatterDims.start
    rw [dif_pos hm, hsi, ht]
  have hcond : ∀ a, 0 ≤ d.start (ix1 p) idx a + d.window (ix1 p) a ∧
      d.start (ix1 p) idx a + d.window (ix1 p) a < (⟨1, ![N]⟩ : Shape).size a := by
    intro a
    obtain rfl : a = 0 := Subsingleton.elim _ _
    rw [hstart, hwin]
    have hs : (⟨1, ![N]⟩ : Shape).size 0 = N := rfl
    rw [hs]
    have := t.isLt
    omega
  unfold ScatterDims.resultIdx?
  rw [dif_pos hcond]
  congr 1
  funext a
  obtain rfl : a = 0 := Subsingleton.elim _ _
  apply Fin.ext
  show (d.start (ix1 p) idx 0 + d.window (ix1 p) 0).toNat = t.val
  rw [hstart, hwin]
  omega

/-- THE COLUMN SCATTER `y.at[:, idx].set(v)`: operand [R × N], scatter indices the [n × 1] column, updates [R × n];
    the updates' axis 0 the one window axis, the operand's axis 1 inserted and scatter-indexed. Update (b, p) lands on
    element (b, t) when the index of position p reads as t. -/
theorem scatter_cols_resultIdx {R N n w : Nat} (d : ScatterDims ⟨2, ![R, N]⟩ ⟨2, ![n, 1]⟩ ⟨2, ![R, n]⟩)
    (huw : d.updateWindowDims = [0]) (hiw : d.insertedWindowDims = [1]) (hsd : d.scatterDimsToOperandDims = [1])
    (hivd : d.indexVectorDim = 1)
    (idx : IVec ⟨2, ![n, 1]⟩ w) (b : Fin R) (p : Fin n) (t : Fin N) (ht : (idx (ixP p)).toInt = (t.val : Int)) :
    d.resultIdx? (ix2 b p) idx = some (ix2 b t) := by
  have hus : d.uScatter = [1] := by
    show Shape.kept _ d.updateWindowDims = _
    rw [huw]; rfl
  have hsk : d.sKept = [0] := by
    show Shape.kept _ d.insertedWindowDims = _
    rw [hiw]; rfl
  -- axis 0 of the operand: not scatter-indexed; the window coordinate is the update's axis-0 coordinate
  have hstart0 : d.start (ix2 b p) idx 0 = 0 := by
    unfold ScatterDims.start
    rw [dif_neg (by rw [hsd]; simp)]
  have hwin0 : d.window (ix2 b p) 0 = b.val := by
    have hk : (0 : Fin 2) ∈ d.sKept := by rw [hsk]; exact List.mem_singleton.mpr rfl
    unfold ScatterDims.window
    rw [dif_pos hk]
    have e : ∀ X : Fin 2, X = 0 → ((ix2 b p : (⟨2, ![R, n]⟩ : Shape).Idx) X).val = b.val := fun X hX => by
      subst hX; rfl
    exact e _ (getElem_of_eq_singleton huw _ _)
  -- axis 1 of the operand: inserted, so no window coordinate; the start is the index of position p
  have hwin1 : d.window (ix2 b p) 1 = 0 := by
    unfold ScatterDims.window
    rw [dif_neg (by rw [hsk]; simp)]
  have hstart1 : d.start (ix2 b p) idx 1 = (t.val : Int) := by
    have hm : (1 : Fin 2) ∈ d.scatterDimsToOperandDims := by rw [hsd]; exact List.mem_singleton.mpr rfl
    have hsi : d.siIdx (ix2 b p) ⟨List.idxOf (1 : Fin 2) d.scatterDimsToOperandDims, List.idxOf_lt_length_iff.2 hm⟩ = ixP p := by
      funext c
      match c with
      | ⟨0, _⟩ =>
        unfold ScatterDims.siIdx
        rw [dif_neg (by rw [hivd]; simp)]
        unfold ScatterDims.siCoord
        apply Fin.ext
        simp only [Fin.val_cast]
        have e : ∀ X : Fin 2, X = 1 → ((ix2 b p : (⟨2, ![R, n]⟩ : Shape).Idx) X).val = p.val := fun X hX => by
          subst hX; rfl
        exact e _ (getElem_of_eq_singleton hus _ _)
      | ⟨1, _⟩ =>
        unfold ScatterDims.siIdx
        rw [dif_pos (by rw [hivd])]
        apply Fin.ext
        show List.idxOf (1 : Fin 2) d.scatterDimsToOperandDims = 0
        rw [hsd]; simp
    unfold ScatterDims.start
    rw [dif_pos hm, hsi, ht]
  have hcond : ∀ a, 0 ≤ d.start (ix2 b p) idx a + d.window (ix2 b p) a ∧
      d.start (ix2 b p) idx a + d.window (ix2 b p) a < (⟨2, ![R, N]⟩ : Shape).size a := by
    intro a
    match a with
    | ⟨0, _⟩ =>
      show 0 ≤ d.start (ix2 b p) idx 0 + d.window (ix2 b p) 0 ∧
        d.start (ix2 b p) idx 0 + d.window (ix2 b p) 0 < ((R : Nat) : Int)
      rw [hstart0, hwin0]
      have := b.isLt
      omega
    | ⟨1, _⟩ =>
      show 0 ≤ d.start (ix2 b p) idx 1 + d.window (ix2 b p) 1 ∧
        d.start (ix2 b p) idx 1 + d.window (ix2 b p) 1 < ((N : Nat) : Int)
      rw [hstart1, hwin1]
      have := t.isLt
      omega
  unfold ScatterDims.resultIdx?
  rw [dif_pos hcond]
  congr 1
  funext a
  apply Fin.ext
  match a with
  | ⟨0, _⟩ =>
    show (d.start (ix2 b p) idx 0 + d.window (ix2 b p) 0).toNat = b.val
    rw [hstart0, hwin0]
    omega
  | ⟨1, _⟩ =>
    show (d.start (ix2 b p) idx 1 + d.window (ix2 b p) 1).toNat = t.val
    rw [hstart1, hwin1]
    omega

end Cert.Lib.Index
-- ==== Proof.LibScatterSet.lean ====
/-
  A scatter whose body returns the update (jnp's `x.at[idx].set(v)`) is a left fold over the update positions, each step
  overwriting one element of the running array or, when its position falls outside the operand, doing nothing.
  When at most one update position lands on an element, the fold's order does not matter there: the element ends at
  that update's value; an element no update lands on keeps the operand's value.  Stated for any such fold first, then
  for `Host.scatter` with the overwriting body.
-/
import Idealize.ShloMosaic.PureOps

namespace Cert.Lib.ScatterSet

open Idealize.ShloMosaic

section Fold
variable {α ι κ : Type}

/-- The fold over update positions `l` of a step `g` that overwrites element `p n` with `v n` (and does nothing when
    `p n = none`): an element `i` that no position of `l` lands on keeps its starting value. -/
theorem foldl_miss (p : κ → Option ι) (v : κ → α) (g : (ι → α) → κ → (ι → α))
    (hsome : ∀ r n i, p n = some i → (g r n) i = v n ∧ ∀ i', i' ≠ i → (g r n) i' = r i')
    (hnone : ∀ r n, p n = none → g r n = r)
    (l : List κ) (r : ι → α) (i : ι) (h : ∀ n ∈ l, p n ≠ some i) :
    (l.foldl g r) i = r i := by
  induction l generalizing r with
  | nil => rfl
  | cons n l ih =>
    rw [List.foldl_cons, ih _ (fun n' hn' => h n' (List.mem_cons_of_mem _ hn'))]
    cases hp : p n with
    | none => rw [hnone r n hp]
    | some i0 =>
      have hne : i ≠ i0 := fun e => h n List.mem_cons_self (by rw [hp, e])
      exact (hsome r n i0 hp).2 i hne

/-- … and an element `i` on which only the position `n₀` lands ends at `v n₀`, provided `n₀` is among the positions
    (or the element already held that value). -/
theorem foldl_hit (p : κ → Option ι) (v : κ → α) (g : (ι → α) → κ → (ι → α))
    (hsome : ∀ r n i, p n = some i → (g r n) i = v n ∧ ∀ i', i' ≠ i → (g r n) i' = r i')
    (hnone : ∀ r n, p n = none → g r n = r)
    (i : ι) (n₀ : κ) (h₀ : p n₀ = some i)
    (l : List κ) (r : ι → α) (huniq : ∀ n ∈ l, p n = some i → n = n₀)
    (hstart : r i = v n₀ ∨ n₀ ∈ l) :
    (l.foldl g r) i = v n₀ := by
  induction l generalizing r with
  | nil =>
    rcases hstart with h | h
    · exact h
    · exact absurd h List.not_mem_nil
  | cons n l ih =>
    rw [List.foldl_cons]
    refine ih _ (fun n' hn' => huniq n' (List.mem_cons_of_mem _ hn')) ?_
    cases hp : p n with
    | none =>
      rw [hnone r n hp]
      rcases hstart with h | h
      · exact Or.inl h
      · rcases List.mem_cons.1 h with e | e
        · rw [e, hp] at h₀; exact absurd h₀ (by simp)
        · exact Or.inr e
    | some i0 =>
      by_cases hi : i = i0
      · subst hi
        have hn : n = n₀ := huniq n List.mem_cons_self hp
        exact Or.inl (by rw [(hsome r n i hp).1, hn])
      · rw [(hsome r n i0 hp).2 i hi]
        rcases hstart with h | h
        · exact Or.inl h
        · rcases List.mem_cons.1 h with e | e
          · rw [e, hp] at h₀; exact absurd (Option.some.inj h₀).symm hi
          · exact Or.inr e

end Fold

section Scatter
variable {α : Type} {s si u : Shape} {w : Nat}

/-- The overwriting scatter's step has the two properties the fold lemmas ask for. -/
private theorem step_some (d : ScatterDims s si u) (idx : IVec si w) (upd : u.Idx → α) (r : s.Idx → α) (n : Fin u.numel) (i : s.Idx)
    (h : d.resultIdx? (u.rowMajor.symm n) idx = some i) :
    ((match d.resultIdx? (u.rowMajor.symm n) idx with
      | some i => fun i' => if i' = i then (fun (_ : α) b => b) (r i) (upd (u.rowMajor.symm n)) else r i'
      | none => r) : s.Idx → α) i = upd (u.rowMajor.symm n)
    ∧ ∀ i', i' ≠ i → ((match d.resultIdx? (u.rowMajor.symm n) idx with
      | some i => fun i' => if i' = i then (fun (_ : α) b => b) (r i) (upd (u.rowMajor.symm n)) else r i'
      | none => r) : s.Idx → α) i' = r i' := by
  rw [h]
  exact ⟨if_pos rfl, fun i' hi' => if_neg hi'⟩

private theorem step_none (d : ScatterDims s si u) (idx : IVec si w) (upd : u.Idx → α) (r : s.Idx → α) (n : Fin u.numel)
    (h : d.resultIdx? (u.rowMajor.symm n) idx = none) :
    ((match d.resultIdx? (u.rowMajor.symm n) idx with
      | some i => fun i' => if i' = i then (fun (_ : α) b => b) (r i) (upd (u.rowMajor.symm n)) else r i'
      | none => r) : s.Idx → α) = r := by
  rw [h]

/-- AN ELEMENT NO UPDATE LANDS ON keeps the operand's value. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact foldl_miss (fun n => d.resultIdx? (u.rowMajor.symm n) idx) (fun n => upd (u.rowMajor.symm n)) _
    (fun r n i h => step_some d idx upd r n i h) (fun r n h => step_none d idx upd r n h)
    _ x i (fun n _ => h _)

/-- AN ELEMENT EXACTLY ONE UPDATE LANDS ON ends at that update's value. -/
theorem scatter_set_hit (d : ScatterDims s si u) (x : s.Idx → α) (idx : IVec si w) (upd : u.Idx → α) (j₀ : u.Idx) (i : s.Idx)
    (h₀ : d.resultIdx? j₀ idx = some i) (huniq : ∀ j, d.resultIdx? j idx = some i → j = j₀) :
    Host.scatter d (fun _ b => b) x idx upd i = upd j₀ := by
  unfold Host.scatter
  have hj : u.rowMajor.symm (u.rowMajor j₀) = j₀ := Equiv.symm_apply_apply _ _
  refine (foldl_hit (fun n => d.resultIdx? (u.rowMajor.symm n) idx) (fun n => upd (u.rowMajor.symm n)) _
    (fun r n i h => step_some d idx upd r n i h) (fun r n h => step_none d idx upd r n h)
    i (u.rowMajor j₀) (by show d.resultIdx? (u.rowMajor.symm (u.rowMajor j₀)) idx = some i; rw [hj]; exact h₀)
    (List.finRange u.numel) x ?_ (Or.inr (List.mem_finRange _))).trans ?_
  · intro n _ hn
    have := huniq _ hn
    rw [← this, Equiv.apply_symm_apply]
  · show upd (u.rowMajor.symm (u.rowMajor j₀)) = upd j₀
    rw [hj]

end Scatter

end Cert.Lib.ScatterSet
-- ==== Proof.BridgeKernel.lean ====
/-
  The kernel program's result, read at one element, when the index is a permutation.
  Write c = col p for the column that position p names.  Then:
  * a start-index column made from small non-negative words is those words;
  * the inverse table holds p at entry col p (exactly one update lands there);
  * so the group of column col p is p / 64;
  * the gathered array at (b, g, k) is x at (b, col (64 g + k));
  * and the result at (b, col p) is x (b, col p) divided by S (b, p / 64), S the region's array of group sums.
-/
import proofs.«425229_j9062380994837_3_alg».proof.Proof.KernelTerm
import proofs.«425229_j9062380994837_3_alg».proof.Proof.Spec
import proofs.«425229_j9062380994837_3_alg».proof.Proof.Words
import proofs.«425229_j9062380994837_3_alg».proof.Proof.LibIndex
import proofs.«425229_j9062380994837_3_alg».proof.Proof.LibScatterSet
import Idealize.ShloMosaic.Lib.Pipeline.Value
import Idealize.ShloMosaic.Lib.StableHlo.Predicate

noncomputable section

namespace Cert.Bridge

open Idealize.ShloMosaic Idealize.ShloMosaic.ValueIdx
open Idealize.ShloMosaic.StableHlo.Predicate (ixP bcast_col1)
open Cert.Spec Cert.Words Cert.KernelIdeal Cert.KernelIdeal.Term

/-- The one index of a rank-1 shape at position p, in its two spellings. -/
theorem ofFin_eq_ix1 {n : Nat} (p : Fin n) : (Shape.Idx.ofFin p : (⟨1, ![n]⟩ : Shape).Idx) = ix1 p := by
  funext d; match d with | ⟨0, _⟩ => rfl

/-- A start-index column read at position p is the word at p, when that word is non-negative. -/
theorem startCol_apply (n : BitVec 32) (g : IVec S65536 32) (p : Fin 65536) (h : (g (ix1 p)).toNat < 2 ^ 31) :
    startCol n g (ixP p) = g (ix1 p) := by
  unfold startCol
  rw [bcast_col1, ofFin_eq_ix1]
  exact wrap_small (g (ix1 p)) n h

variable {idx : IVec S65536 32}

/-- The start index of position p, read signed, is the column p names. -/
theorem startCol_toInt (hp : IsPerm idx) (p : Fin 65536) :
    (startCol 65536#32 idx (ixP p)).toInt = ((col hp p).val : Int) := by
  have hlt := hp.lt p
  rw [startCol_apply _ _ _ (by omega), toInt_small _ (by omega)]
  rfl

/-- THE INVERSE TABLE holds p at entry col p: update p lands there and no other update does. -/
theorem invIndex_col (hp : IsPerm idx) (p : Fin 65536) : invIndex idx (ix1 (col hp p)) = BitVec.ofNat 32 p.val := by
  unfold invIndex
  rw [Cert.Lib.ScatterSet.scatter_set_hit _ _ _ _ (ix1 p) (ix1 (col hp p))
    (Cert.Lib.Index.scatter1_resultIdx _ rfl rfl rfl rfl _ p (col hp p) (startCol_toInt hp p))
    (fun j hj => by
      obtain ⟨q, rfl⟩ : ∃ q, j = ix1 q := ⟨j 0, eq_ix1 j⟩
      rw [Cert.Lib.Index.scatter1_resultIdx _ rfl rfl rfl rfl _ q (col hp q) (startCol_toInt hp q)] at hj
      have e : col hp q = col hp p := congrFun (Option.some.inj hj) 0
      rw [col_injective hp e])]
  rfl

/-- The group of column col p is p / 64. -/
theorem groupOf_col (hp : IsPerm idx) (p : Fin 65536) :
    groupOf idx (ix1 (col hp p)) = BitVec.ofNat 32 (p.val / 64) := by
  have e : groupOf idx (ix1 (col hp p)) = fdiv64 (invIndex idx (ix1 (col hp p))) := rfl
  have hp' : p.val < 65536 := p.isLt
  have hn : (BitVec.ofNat 32 p.val).toNat = p.val := by rw [BitVec.toNat_ofNat]; omega
  rw [e, invIndex_col hp p, fdiv64_small _ (by rw [hn]; exact hp'), hn]

/-- The gathered array at (b, g, k) is x at row b and the column that position 64 g + k names. -/
theorem gathered_apply {F : FTy → Type} [FloatOps F] (hp : IsPerm idx) (x : FVec F S1024x65536 .f32)
    (b g : Fin 1024) (k : Fin 64) :
    gathered x idx (ix3 b g k) = x (ix2 b (col hp ⟨g.val * 64 + k.val, by omega⟩)) := by
  unfold gathered
  rw [shapeCast_apply _ _ (ix3 b g k) (ix2 b (⟨g.val * 64 + k.val, by omega⟩ : Fin 65536))
    (by
      rw [Shape.rowMajor_val_two, Shape.rowMajor_val_three]
      show b.val * 65536 + (g.val * 64 + k.val) = (b.val * 1024 + g.val) * 64 + k.val
      omega)]
  rw [Cert.Lib.Index.gather_cols_apply _ rfl rfl rfl rfl rfl x _ b _ (by decide)]
  refine congrArg x (congrArg (ix2 b) (Fin.ext ?_))
  have hlt := hp.lt ⟨g.val * 64 + k.val, by omega⟩
  show min (startCol 65536#32 idx (ixP _)).toInt.toNat (65536 - 1) = (idx (ix1 _)).toNat
  rw [startCol_toInt hp]
  show min ((idx (ix1 _)).toNat : Int).toNat 65535 = _
  rw [Int.toNat_natCast]
  omega

/-- THE RESULT at (b, col p): x there divided by the group sum S at (b, p / 64). -/
theorem scaled_col {F : FTy → Type} [FloatOps F] (hp : IsPerm idx) (x : FVec F S1024x65536 .f32) (S : FVec F S1024x1024 .f32)
    (b : Fin 1024) (p : Fin 65536) :
    scaled x S idx (ix2 b (col hp p))
      = FloatOps.hostDivf (x (ix2 b (col hp p))) (S (ix2 b (⟨p.val / 64, by omega⟩ : Fin 1024))) := by
  unfold scaled
  show FloatOps.hostDivf (x (ix2 b (col hp p))) (Host.gather _ S _ (ix2 b (col hp p))) = _
  rw [Cert.Lib.Index.gather_cols_apply _ rfl rfl rfl rfl rfl S _ b _ (by decide)]
  refine congrArg (FloatOps.hostDivf _) (congrArg S (congrArg (ix2 b) (Fin.ext ?_)))
  have hg := groupOf_col hp p
  have hp' : p.val < 65536 := p.isLt
  have hn : (BitVec.ofNat 32 (p.val / 64)).toNat = p.val / 64 := by rw [BitVec.toNat_ofNat]; omega
  show min (startCol 1024#32 (groupOf idx) (ixP (col hp p))).toInt.toNat (1024 - 1) = p.val / 64
  rw [startCol_apply _ _ _ (by rw [hg, hn]; omega), hg, toInt_small _ (by rw [hn]; omega), hn, Int.toNat_natCast]
  omega

end Cert.Bridge

end
-- ==== Proof.BridgeRef.lean ====
/-
  The reference program's result, read at one element, when the index is a permutation.
  With c = col p the column that position p names: the gathered array at (b, q) is x at (b, col q); regrouped, entry
  (b, g, k) is x at (b, col (64 g + k)); the group's sum is the sum of those 64 entries (the sum's initial value is 0);
  the normalized array at position (b, p) is the entry divided by its group's sum; and the overwriting scatter leaves
  at (b, col p) the update of position (b, p), the only one that lands there.
-/
import proofs.«425229_j9062380994837_3_alg».proof.Proof.Gen.ReferenceIdeal.Read
import proofs.«425229_j9062380994837_3_alg».proof.Proof.Spec
import proofs.«425229_j9062380994837_3_alg».proof.Proof.Words
import proofs.«425229_j9062380994837_3_alg».proof.Proof.LibIndex
import proofs.«425229_j9062380994837_3_alg».proof.Proof.LibScatterSet
import Idealize.ShloMosaic.Lib.Pipeline.Value
import Idealize.ShloMosaic.Lib.StableHlo.Predicate
import Idealize.ShloMosaic.PureOps.Ideal.Laws

noncomputable section

namespace Cert.BridgeRef

open Idealize.ShloMosaic Idealize.ShloMosaic.ValueIdx
open Idealize.ShloMosaic.StableHlo.Predicate (ixP bcast_col1)
open Cert.Spec Cert.Words Cert.ReferenceIdeal Cert.ReferenceIdeal.Read

variable {F : FTy → Type} [FloatOps F]
variable {idx : IVec S65536 32}

private theorem ofFin_eq_ix1 {n : Nat} (p : Fin n) : (Shape.Idx.ofFin p : (⟨1, ![n]⟩ : Shape).Idx) = ix1 p := by
  funext d; match d with | ⟨0, _⟩ => rfl

/-- The gather's start-index column at position p is the word at p. -/
theorem v5_apply (hp : IsPerm idx) (p : Fin 65536) : val_main_v5 (F := F) idx (ixP p) = idx (ix1 p) := by
  have hlt := hp.lt p
  unfold val_main_v5
  rw [bcast_col1, ofFin_eq_ix1]
  exact wrap_small (idx (ix1 p)) 65536#32 (by omega)

/-- The scatter's index column at position p is the word at p. -/
theorem v19_apply (hp : IsPerm idx) (p : Fin 65536) : val_main_v19 (F := F) idx (ixP p) = idx (ix1 p) := by
  have hlt := hp.lt p
  unfold val_main_v19
  rw [bcast_col1, ofFin_eq_ix1]
  exact wrap_small (idx (ix1 p)) 65536#32 (by omega)

theorem v19_toInt (hp : IsPerm idx) (p : Fin 65536) :
    (val_main_v19 (F := F) idx (ixP p)).toInt = ((col hp p).val : Int) := by
  have hlt := hp.lt p
  rw [v19_apply hp, toInt_small _ (by omega)]
  rfl

/-- The gathered array at (b, q) is x at (b, col q). -/
theorem v6_apply (hp : IsPerm idx) (x : FVec F S1024x65536 .f32) (b : Fin 1024) (q : Fin 65536) :
    val_main_v6 (F := F) x idx (ix2 b q) = x (ix2 b (col hp q)) := by
  unfold val_main_v6
  rw [Cert.Lib.Index.gather_cols_apply _ rfl rfl rfl rfl rfl x _ b q (by decide)]
  refine congrArg x (congrArg (ix2 b) (Fin.ext ?_))
  have hlt := hp.lt q
  show min (val_main_v5 (F := F) idx (ixP q)).toInt.toNat (65536 - 1) = (idx (ix1 q)).toNat
  rw [v5_apply hp, toInt_small _ (by omega), Int.toNat_natCast]
  omega

/-- Regrouped: entry (b, g, k) is x at (b, col (64 g + k)). -/
theorem v7_apply (hp : IsPerm idx) (x : FVec F S1024x65536 .f32) (b g : Fin 1024) (k : Fin 64) :
    val_main_v7 (F := F) x idx (ix3 b g k) = x (ix2 b (col hp ⟨g.val * 64 + k.val, by omega⟩)) := by
  rw [val_main_v7_apply, ← v6_apply hp x b]
  refine congrArg _ (funext fun a => Fin.ext ?_)
  have hb := b.isLt; have hg := g.isLt; have hk := k.isLt
  match a with
  | ⟨0, _⟩ => show ((b.val * 1024 + g.val) * 64 + k.val) / 65536 = b.val; omega
  | ⟨1, _⟩ => show ((b.val * 1024 + g.val) * 64 + k.val) % 65536 = g.val * 64 + k.val; omega

/-- A group's sum: the 64 entries of the group, summed. -/
theorem v8_apply (hp : IsPerm idx) (x : FVec Ideal S1024x65536 .f32) (b g : Fin 1024) :
    val_main_v8 (F := Ideal) x idx (ix2 b g) = ∑ k : Fin 64, x (ix2 b (col hp ⟨g.val * 64 + k.val, by omega⟩)) := by
  rw [val_main_v8_apply, val_main_cst_apply]
  show Ideal.ofBits .f32 0x00000000#32 + _ = _
  rw [Ideal.ofBits_zero_f32, zero_add]
  refine Finset.sum_congr rfl fun k _ => ?_
  rw [← v7_apply hp x b g k]
  exact congrArg _ (funext fun a => Fin.ext (by match a with | ⟨0, _⟩ => rfl | ⟨1, _⟩ => rfl | ⟨2, _⟩ => rfl))

/-- The normalized entry at (b, g, k): the entry divided by its group's sum. -/
theorem v11_apply (hp : IsPerm idx) (x : FVec Ideal S1024x65536 .f32) (b g : Fin 1024) (k : Fin 64) :
    val_main_v11 (F := Ideal) x idx (ix3 b g k)
      = FloatOps.hostDivf (x (ix2 b (col hp ⟨g.val * 64 + k.val, by omega⟩)))
          (∑ k' : Fin 64, x (ix2 b (col hp ⟨g.val * 64 + k'.val, by omega⟩))) := by
  rw [val_main_v11_apply, v7_apply hp, val_main_v10_apply, val_main_v9_apply, ← v8_apply hp x b g]
  refine congrArg _ (congrArg _ (funext fun a => Fin.ext ?_))
  match a with
  | ⟨0, _⟩ => rfl
  | ⟨1, _⟩ => rfl

/-- THE RESULT at (b, col p): x there divided by the sum of the group position p lies in. -/
theorem v20_col (hp : IsPerm idx) (x : FVec Ideal S1024x65536 .f32) (b : Fin 1024) (p : Fin 65536) :
    val_main_v20 (F := Ideal) x idx (ix2 b (col hp p))
      = FloatOps.hostDivf (x (ix2 b (col hp p)))
          (∑ k : Fin 64, x (ix2 b (col hp ⟨p.val / 64 * 64 + k.val, by omega⟩))) := by
  have hp' := p.isLt
  have hb := b.isLt
  unfold val_main_v20
  rw [Cert.Lib.ScatterSet.scatter_set_hit _ _ _ _ (ix2 b p) (ix2 b (col hp p))
    (Cert.Lib.Index.scatter_cols_resultIdx _ rfl rfl rfl rfl _ b p (col hp p) (v19_toInt hp p))
    (fun j hj => by
      obtain ⟨b', q, rfl⟩ : ∃ b' q, j = ix2 b' q := ⟨j 0, j 1, eq_ix2 j⟩
      rw [Cert.Lib.Index.scatter_cols_resultIdx _ rfl rfl rfl rfl _ b' q (col hp q) (v19_toInt hp q)] at hj
      have e := Option.some.inj hj
      have e0 : b' = b := congrFun e 0
      have e1 : col hp q = col hp p := congrFun e 1
      rw [e0, col_injective hp e1])]
  rw [val_main_v13_apply]
  have hi : idx_main_v13 (ix2 b p) = ix3 b (⟨p.val / 64, by omega⟩ : Fin 1024) (⟨p.val % 64, by omega⟩ : Fin 64) := by
    funext a; refine Fin.ext ?_
    match a with
    | ⟨0, _⟩ => show (b.val * 65536 + p.val) / 65536 = b.val; omega
    | ⟨1, _⟩ => show (b.val * 65536 + p.val) / 64 % 1024 = p.val / 64; omega
    | ⟨2, _⟩ => show (b.val * 65536 + p.val) % 64 = p.val % 64; omega
  rw [hi, v11_apply hp]
  have hq : (⟨p.val / 64 * 64 + p.val % 64, by omega⟩ : Fin 65536) = p := Fin.ext (by show p.val / 64 * 64 + p.val % 64 = p.val; omega)
  show FloatOps.hostDivf (x (ix2 b (col hp ⟨p.val / 64 * 64 + p.val % 64, _⟩))) _ = _
  rw [hq]

end Cert.BridgeRef

end
-- ==== Proof.Bridge.lean ====
/-
  The two programs compute one function when the index is a permutation.  Every column c is col p for exactly one
  position p; at (b, col p) the kernel program divides x (b, col p) by the region's group sum at (b, p / 64), which is the
  sum over k of x (b, col (64 (p / 64) + k)); the reference divides the same entry by the same sum, and its scatter
  puts the quotient at (b, col p).
-/
import proofs.«425229_j9062380994837_3_alg».proof.Proof.BridgeKernel
import proofs.«425229_j9062380994837_3_alg».proof.Proof.BridgeRef

noncomputable section

namespace Cert.Bridge

open Idealize.ShloMosaic Idealize.ShloMosaic.ValueIdx
open Cert.Spec Cert.KernelIdeal Cert.KernelIdeal.Term

/-- The kernel program's result is the reference's, element by element. -/
theorem result_eq {idx : IVec S65536 32} (hp : IsPerm idx) (x : FVec Ideal S1024x65536 .f32) :
    Term.result x idx = Cert.ReferenceIdeal.Read.val_main_v20 (F := Ideal) x idx := by
  funext j
  obtain ⟨b, c, rfl⟩ : ∃ (b : Fin 1024) (c : Fin 65536), j = ix2 b c := ⟨j 0, j 1, eq_ix2 j⟩
  obtain ⟨p, rfl⟩ := col_surjective hp c
  have hp' := p.isLt
  rw [Cert.BridgeRef.v20_col hp x b p]
  unfold Term.result
  rw [scaled_col hp x _ b p]
  refine congrArg _ ?_
  show (∑ k : Fin 64, gathered x idx (ix3 b (⟨p.val / 64, by omega⟩ : Fin 1024) k)) = _
  exact Finset.sum_congr rfl fun k _ => gathered_apply hp x b _ k

end Cert.Bridge

end
-- ==== Proof.lean ====
/-
  The certificate's five claims.

  The kernel program gathers the columns of x at the index, sums each group of 64 gathered entries in its one region,
  builds the inverse of the index by scattering positions, and divides each column of x by the sum of the group that
  column belongs to.  The reference gathers the same columns, divides each gathered entry by its group's sum, and
  scatters the quotients back to their columns.  Under the precondition the index is a permutation of the columns, so
  each column is named by exactly one position, the inverse table and the scatter are well defined whatever order the
  updates take, and both programs leave x (b, c) / (sum of the group of the position naming c) at (b, c).

  The three frames: the two kernel programs' are the generated frame certificates; the reference's is its generated run
  with the result forgotten.  The idealization rewrote nothing, so `preserves` is trivial.  `algebraic`: the kernel
  program's run with its result named, the reference's generated run, and the equality of the two results.
-/
import proofs.«425229_j9062380994837_3_alg».proof.Defs
import proofs.«425229_j9062380994837_3_alg».proof.Proof.Gen.Kernel
import proofs.«425229_j9062380994837_3_alg».proof.Proof.Gen.Kernel.Frame
import proofs.«425229_j9062380994837_3_alg».proof.Proof.Gen.KernelIdeal
import proofs.«425229_j9062380994837_3_alg».proof.Proof.Gen.KernelIdeal.Frame
import proofs.«425229_j9062380994837_3_alg».proof.Proof.Gen.ReferenceIdeal
import proofs.«425229_j9062380994837_3_alg».proof.Proof.Gen.ReferenceIdeal.Run
import proofs.«425229_j9062380994837_3_alg».proof.Proof.Gen.ReferenceIdeal.Read
import proofs.«425229_j9062380994837_3_alg».proof.Proof.Gen.Pre_finite_inputs
import proofs.«425229_j9062380994837_3_alg».proof.Proof.PreDecode
import proofs.«425229_j9062380994837_3_alg».proof.Proof.KernelValue
import proofs.«425229_j9062380994837_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on x and the index, with the index a permutation, both programs end with one result. -/
theorem algebraic : Cert.algebraic_KernelIdeal_ReferenceIdeal := by
  intro m ρ m' ρ' hpre hagree
  refine ⟨_, Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  exact (Cert.Bridge.result_eq (Cert.PreDecode.isPerm_of_pre _ _ (hpre c)) _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
